-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x32x32 : Shape := ⟨4, ![8, 32, 32, 32]⟩
abbrev S1x1x1x288x64 : Shape := ⟨5, ![1, 1, 1, 288, 64]⟩
abbrev S64 : Shape := ⟨1, ![64]⟩
abbrev S_ : Shape := ⟨0, ![]⟩

class Facts : Prop where
  bcast_S_S8x32x32x32 : S_.BroadcastsInDim S8x32x32x32 (![] : Fin 0 → Fin S8x32x32x32.rank)
  reducesTo_S8x32x32x32_S_d0_1_2_3 : S8x32x32x32.ReducesTo [0, 1, 2, 3] S_
  h_S_ : 0 < S_.numel
  bcast_S_S1x1x1x288x64 : S_.BroadcastsInDim S1x1x1x288x64 (![] : Fin 0 → Fin S1x1x1x288x64.rank)
  reducesTo_S1x1x1x288x64_S_d0_1_2_3_4 : S1x1x1x288x64.ReducesTo [0, 1, 2, 3, 4] S_
  bcast_S_S64 : S_.BroadcastsInDim S64 (![] : Fin 0 → Fin S64.rank)
  reducesTo_S64_S_d0 : S64.ReducesTo [0] S_

variable [Facts]

def fn {F : FTy → Type} [FloatOps F] (main_arg0 : FVec F S8x32x32x32 .f32) (main_arg1 : FVec F S1x1x1x288x64 .f32) (main_arg2 : FVec F S64 .f32) : IVec S_ 1 :=
  let main_v0 : FVec F S8x32x32x32 .f32 := Host.absf main_arg0
  let main_cst : FVec F S_ .f32 := constant S_ .f32 0x7F800000#32
  let main_v1 : FVec F S8x32x32x32 .f32 := broadcastInDim S8x32x32x32 ![] bcast_S_S8x32x32x32 main_cst
  let main_v2 : IVec S8x32x32x32 1 := cmpf .olt main_v0 main_v1
  let main_c : IVec S_ 1 := constantI S_ 1 1#1
  let main_v3 : IVec S_ 1 := (fun x v => Host.reduce IntOp.andi x v reducesTo_S8x32x32x32_S_d0_1_2_3 h_S_) main_v2 main_c
  let main_v4 : FVec F S1x1x1x288x64 .f32 := Host.absf main_arg1
  let main_cst_0 : FVec F S_ .f32 := constant S_ .f32 0x7F800000#32
  let main_v5 : FVec F S1x1x1x288x64 .f32 := broadcastInDim S1x1x1x288x64 ![] bcast_S_S1x1x1x288x64 main_cst_0
  let main_v6 : IVec S1x1x1x288x64 1 := cmpf .olt main_v4 main_v5
  let main_c_1 : IVec S_ 1 := constantI S_ 1 1#1
  let main_v7 : IVec S_ 1 := (fun x v => Host.reduce IntOp.andi x v reducesTo_S1x1x1x288x64_S_d0_1_2_3_4 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S8x32x32x32 : Shape := ⟨4, ![8, 32, 32, 32]⟩
abbrev S1x1x1x288x64 : Shape := ⟨5, ![1, 1, 1, 288, 64]⟩
abbrev S64 : Shape := ⟨1, ![64]⟩
abbrev S8x30x30x32 : Shape := ⟨4, ![8, 30, 30, 32]⟩
abbrev S8x30x30x288 : Shape := ⟨4, ![8, 30, 30, 288]⟩
abbrev S7200x288 : Shape := ⟨2, ![7200, 288]⟩
abbrev S288x64 : Shape := ⟨2, ![288, 64]⟩
abbrev S64x288 : Shape := ⟨2, ![64, 288]⟩
abbrev S1x64 : Shape := ⟨2, ![1, 64]⟩
abbrev S7200x64 : Shape := ⟨2, ![7200, 64]⟩
abbrev S120x288 : Shape := ⟨2, ![120, 288]⟩
abbrev S120x64 : Shape := ⟨2, ![120, 64]⟩
abbrev S120x1x288 : Shape := ⟨3, ![120, 1, 288]⟩
abbrev S1x64x288 : Shape := ⟨3, ![1, 64, 288]⟩
abbrev S120x64x288 : Shape := ⟨3, ![120, 64, 288]⟩
abbrev S8x30x30x64 : Shape := ⟨4, ![8, 30, 30, 64]⟩

abbrev nBuf : Space → Nat
  | .hbm => 19
  | .vmem => 6
  | .smem => 0
  | _ => 0

abbrev bufTy : (tb : Table) → Fin (tcTables nBuf tb) → BufTy
  | .hbm, ⟨0, _⟩ => ⟨S8x32x32x32, .f32⟩
  | .hbm, ⟨1, _⟩ => ⟨S1x1x1x288x64, .f32⟩
  | .hbm, ⟨2, _⟩ => ⟨S64, .f32⟩
  | .hbm, ⟨3, _⟩ => ⟨S8x30x30x32, .f32⟩
  | .hbm, ⟨4, _⟩ => ⟨S8x30x30x32, .f32⟩
  | .hbm, ⟨5, _⟩ => ⟨S8x30x30x32, .f32⟩
  | .hbm, ⟨6, _⟩ => ⟨S8x30x30x32, .f32⟩
  | .hbm, ⟨7, _⟩ => ⟨S8x30x30x32, .f32⟩
  | .hbm, ⟨8, _⟩ => ⟨S8x30x30x32, .f32⟩
  | .hbm, ⟨9, _⟩ => ⟨S8x30x30x32, .f32⟩
  | .hbm, ⟨10, _⟩ => ⟨S8x30x30x32, .f32⟩
  | .hbm, ⟨11, _⟩ => ⟨S8x30x30x32, .f32⟩
  | .hbm, ⟨12, _⟩ => ⟨S8x30x30x288, .f32⟩
  | .hbm, ⟨13, _⟩ => ⟨S7200x288, .f32⟩
  | .hbm, ⟨14, _⟩ => ⟨S288x64, .f32⟩
  | .hbm, ⟨15, _⟩ => ⟨S64x288, .f32⟩
  | .hbm, ⟨16, _⟩ => ⟨S1x64, .f32⟩
  | .hbm, ⟨17, _⟩ => ⟨S7200x64, .f32⟩
  | .hbm, ⟨18, _⟩ => ⟨S8x30x30x64, .f32⟩
  | .local _ .vmem, ⟨0, _⟩ => ⟨S120x288, .f32⟩
  | .local _ .vmem, ⟨1, _⟩ => ⟨S120x288, .f32⟩
  | .local _ .vmem, ⟨2, _⟩ => ⟨S64x288, .f32⟩
  | .local _ .vmem, ⟨3, _⟩ => ⟨S1x64, .f32⟩
  | .local _ .vmem, ⟨4, _⟩ => ⟨S120x64, .f32⟩
  | .local _ .vmem, ⟨5, _⟩ => ⟨S120x64, .f32⟩
  | _, _ => ⟨S8x32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![60], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S120x288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S120x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S8x32x32x32_S8x30x30x32_0_0_0_0 : S8x32x32x32.Slices ![0, 0, 0, 0] S8x30x30x32
  slices_S8x32x32x32_S8x30x30x32_0_0_1_0 : S8x32x32x32.Slices ![0, 0, 1, 0] S8x30x30x32
  slices_S8x32x32x32_S8x30x30x32_0_0_2_0 : S8x32x32x32.Slices ![0, 0, 2, 0] S8x30x30x32
  slices_S8x32x32x32_S8x30x30x32_0_1_0_0 : S8x32x32x32.Slices ![0, 1, 0, 0] S8x30x30x32
  slices_S8x32x32x32_S8x30x30x32_0_1_1_0 : S8x32x32x32.Slices ![0, 1, 1, 0] S8x30x30x32
  slices_S8x32x32x32_S8x30x30x32_0_1_2_0 : S8x32x32x32.Slices ![0, 1, 2, 0] S8x30x30x32
  slices_S8x32x32x32_S8x30x30x32_0_2_0_0 : S8x32x32x32.Slices ![0, 2, 0, 0] S8x30x30x32
  slices_S8x32x32x32_S8x30x30x32_0_2_1_0 : S8x32x32x32.Slices ![0, 2, 1, 0] S8x30x30x32
  slices_S8x32x32x32_S8x30x30x32_0_2_2_0 : S8x32x32x32.Slices ![0, 2, 2, 0] S8x30x30x32
  concatenates_S8x30x30x32_S8x30x30x32_S8x30x30x32_S8x30x30x32_S8x30x30x32_S8x30x30x32_S8x30x30x32_S8x30x30x32_S8x30x30x32_S8x30x30x288_d3 : Shape.Concatenates [S8x30x30x32, S8x30x30x32, S8x30x30x32, S8x30x30x32, S8x30x30x32, S8x30x30x32, S8x30x30x32, S8x30x30x32, S8x30x30x32] S8x30x30x288 3
  shapeCasts_S8x30x30x288_S7200x288 : S8x30x30x288.ShapeCasts S7200x288
  shapeCasts_S1x1x1x288x64_S288x64 : S1x1x1x288x64.ShapeCasts S288x64
  transposes_S288x64_S64x288_1_0 : S288x64.Transposes [1, 0] S64x288
  shapeCasts_S64_S1x64 : S64.ShapeCasts S1x64
  inb_S120x288_S120x288_0_0 : ∀ a, (![0, 0] : Fin 2 → Nat) a + S120x288.size a ≤ S120x288.size a
  h_S120x288 : 0 < S120x288.numel
  shapeCasts_S120x288_S120x288 : S120x288.ShapeCasts S120x288
  inb_S64x288_S64x288_0_0 : ∀ a, (![0, 0] : Fin 2 → Nat) a + S64x288.size a ≤ S64x288.size a
  h_S64x288 : 0 < S64x288.numel
  shapeCasts_S64x288_S64x288 : S64x288.ShapeCasts S64x288
  shapeCasts_S120x288_S120x1x288 : S120x288.ShapeCasts S120x1x288
  shapeCasts_S64x288_S1x64x288 : S64x288.ShapeCasts S1x64x288
  broadcasts_S120x1x288_S120x64x288 : S120x1x288.Broadcasts S120x64x288
  broadcasts_S1x64x288_S120x64x288 : S1x64x288.Broadcasts S120x64x288
  reduces_S120x64x288_S120x64 : S120x64x288.Reduces [2] S120x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S120x64 : S1x64.Broadcasts S120x64
  inb_S120x64_S120x64_0_0 : ∀ a, (![0, 0] : Fin 2 → Nat) a + S120x64.size a ≤ S120x64.size a
  h_S120x64 : 0 < S120x64.numel
  shapeCasts_S7200x64_S8x30x30x64 : S7200x64.ShapeCasts S8x30x30x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S120x288.size a ≤ S7200x288.size a
  hwx0_0 : ∀ i : grid0.Coords, EltTy.bits .f32 = 32 ∨ (Rect.block (s := S7200x288) S120x288.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x288.size a ≤ S64x288.size a
  hwx0_1 : ∀ i : grid0.Coords, EltTy.bits .f32 = 32 ∨ (Rect.block (s := S64x288) S64x288.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S120x64.size a ≤ S7200x64.size a
  hwx0_3 : ∀ i : grid0.Coords, EltTy.bits .f32 = 32 ∨ (Rect.block (s := S7200x64) S120x64.size (cc0_transform_3 i) (hinb0_3 i)).WholeWords (EltTy.packing .f32)

variable [Facts₀]

abbrev win0_0 : Pipeline.Window sig grid0 :=
  Pipeline.Window.ofSpec (Memref.whole main_v10) S120x288.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S64x288.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S120x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x32x32x32 : Shape := ⟨4, ![8, 32, 32, 32]⟩
abbrev S1x1x1x288x64 : Shape := ⟨5, ![1, 1, 1, 288, 64]⟩
abbrev S64 : Shape := ⟨1, ![64]⟩
abbrev S8x30x30x32 : Shape := ⟨4, ![8, 30, 30, 32]⟩
abbrev S8x30x30x288 : Shape := ⟨4, ![8, 30, 30, 288]⟩
abbrev S8x30x30x288x1 : Shape := ⟨5, ![8, 30, 30, 288, 1]⟩
abbrev S288x64 : Shape := ⟨2, ![288, 64]⟩
abbrev S8x30x30x288x64 : Shape := ⟨5, ![8, 30, 30, 288, 64]⟩
abbrev S_ : Shape := ⟨0, ![]⟩
abbrev S8x30x30x64 : Shape := ⟨4, ![8, 30, 30, 64]⟩
abbrev S1x1x1x64 : Shape := ⟨4, ![1, 1, 1, 64]⟩

abbrev nBuf : Space → Nat
  | .hbm => 27
  | .vmem => 0
  | .smem => 0
  | _ => 0

abbrev bufTy : (tb : Table) → Fin (tcTables nBuf tb) → BufTy
  | .hbm, ⟨0, _⟩ => ⟨S8x32x32x32, .f32⟩
  | .hbm, ⟨1, _⟩ => ⟨S1x1x1x288x64, .f32⟩
  | .hbm, ⟨2, _⟩ => ⟨S64, .f32⟩
  | .hbm, ⟨3, _⟩ => ⟨S8x30x30x32, .f32⟩
  | .hbm, ⟨4, _⟩ => ⟨S8x30x30x32, .f32⟩
  | .hbm, ⟨5, _⟩ => ⟨S8x30x30x32, .f32⟩
  | .hbm, ⟨6, _⟩ => ⟨S8x30x30x32, .f32⟩
  | .hbm, ⟨7, _⟩ => ⟨S8x30x30x32, .f32⟩
  | .hbm, ⟨8, _⟩ => ⟨S8x30x30x32, .f32⟩
  | .hbm, ⟨9, _⟩ => ⟨S8x30x30x32, .f32⟩
  | .hbm, ⟨10, _⟩ => ⟨S8x30x30x32, .f32⟩
  | .hbm, ⟨11, _⟩ => ⟨S8x30x30x32, .f32⟩
  | .hbm, ⟨12, _⟩ => ⟨S8x30x30x288, .f32⟩
  | .hbm, ⟨13, _⟩ => ⟨S8x30x30x288x1, .f32⟩
  | .hbm, ⟨14, _⟩ => ⟨S288x64, .f32⟩
  | .hbm, ⟨15, _⟩ => ⟨S1x1x1x288x64, .f32⟩
  | .hbm, ⟨16, _⟩ => ⟨S8x30x30x288x64, .f32⟩
  | .hbm, ⟨17, _⟩ => ⟨S8x30x30x288x64, .f32⟩
  | .hbm, ⟨18, _⟩ => ⟨S8x30x30x288x64, .f32⟩
  | .hbm, ⟨19, _⟩ => ⟨S_, .f32⟩
  | .hbm, ⟨20, _⟩ => ⟨S8x30x30x64, .f32⟩
  | .hbm, ⟨21, _⟩ => ⟨S_, .f32⟩
  | .hbm, ⟨22, _⟩ => ⟨S8x30x30x64, .f32⟩
  | .hbm, ⟨23, _⟩ => ⟨S8x30x30x64, .f32⟩
  | .hbm, ⟨24, _⟩ => ⟨S1x1x1x64, .f32⟩
  | .hbm, ⟨25, _⟩ => ⟨S8x30x30x64, .f32⟩
  | .hbm, ⟨26, _⟩ => ⟨S8x30x30x64, .f32⟩
  | _, _ => ⟨S8x32x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]

class Facts₀ : Prop where
  slices_S8x32x32x32_S8x30x30x32_0_0_0_0 : S8x32x32x32.Slices ![0, 0, 0, 0] S8x30x30x32
  slices_S8x32x32x32_S8x30x30x32_0_0_1_0 : S8x32x32x32.Slices ![0, 0, 1, 0] S8x30x30x32
  slices_S8x32x32x32_S8x30x30x32_0_0_2_0 : S8x32x32x32.Slices ![0, 0, 2, 0] S8x30x30x32
  slices_S8x32x32x32_S8x30x30x32_0_1_0_0 : S8x32x32x32.Slices ![0, 1, 0, 0] S8x30x30x32
  slices_S8x32x32x32_S8x30x30x32_0_1_1_0 : S8x32x32x32.Slices ![0, 1, 1, 0] S8x30x30x32
  slices_S8x32x32x32_S8x30x30x32_0_1_2_0 : S8x32x32x32.Slices ![0, 1, 2, 0] S8x30x30x32
  slices_S8x32x32x32_S8x30x30x32_0_2_0_0 : S8x32x32x32.Slices ![0, 2, 0, 0] S8x30x30x32
  slices_S8x32x32x32_S8x30x30x32_0_2_1_0 : S8x32x32x32.Slices ![0, 2, 1, 0] S8x30x30x32
  slices_S8x32x32x32_S8x30x30x32_0_2_2_0 : S8x32x32x32.Slices ![0, 2, 2, 0] S8x30x30x32
  concatenates_S8x30x30x32_S8x30x30x32_S8x30x30x32_S8x30x30x32_S8x30x30x32_S8x30x30x32_S8x30x30x32_S8x30x30x32_S8x30x30x32_S8x30x30x288_d3 : Shape.Concatenates [S8x30x30x32, S8x30x30x32, S8x30x30x32, S8x30x30x32, S8x30x30x32, S8x30x30x32, S8x30x30x32, S8x30x30x32, S8x30x30x32] S8x30x30x288 3
  bcast_S8x30x30x288_S8x30x30x288x1_0_1_2_3 : S8x30x30x288.BroadcastsInDim S8x30x30x288x1 (![0, 1, 2, 3] : Fin 4 → Fin S8x30x30x288x1.rank)
  shapeCasts_S1x1x1x288x64_S288x64 : S1x1x1x288x64.ShapeCasts S288x64
  bcast_S288x64_S1x1x1x288x64_3_4 : S288x64.BroadcastsInDim S1x1x1x288x64 (![3, 4] : Fin 2 → Fin S1x1x1x288x64.rank)
  bcast_S8x30x30x288x1_S8x30x30x288x64_0_1_2_3_4 : S8x30x30x288x1.BroadcastsInDim S8x30x30x288x64 (![0, 1, 2, 3, 4] : Fin 5 → Fin S8x30x30x288x64.rank)
  bcast_S1x1x1x288x64_S8x30x30x288x64_0_1_2_3_4 : S1x1x1x288x64.BroadcastsInDim S8x30x30x288x64 (![0, 1, 2, 3, 4] : Fin 5 → Fin S8x30x30x288x64.rank)
  reducesTo_S8x30x30x288x64_S8x30x30x64_d3 : S8x30x30x288x64.ReducesTo [3] S8x30x30x64
  h_S_ : 0 < S_.numel
  bcast_S64_S1x1x1x64_3 : S64.BroadcastsInDim S1x1x1x64 (![3] : Fin 1 → Fin S1x1x1x64.rank)
  bcast_S1x1x1x64_S8x30x30x64_0_1_2_3 : S1x1x1x64.BroadcastsInDim S8x30x30x64 (![0, 1, 2, 3] : Fin 4 → Fin S8x30x30x64.rank)

variable [Facts₀]

class Facts : Prop extends Facts₀ where

variable [Facts]
-- ==== Proof.KernelRegion.lean ====
/-
  The one region of @main on its grid of 60 points, with the host lines around it.

  Before the region @main cuts the image into its nine 30x30 windows shifted by (ki, kj) in {0,1,2}^2, joins them
  along the channel axis into the patch array [8,30,30,288], flattens its three leading axes into 7200 rows, and
  lays the weight out as [64,288] (filter-major) and the bias as one row [1,64]. Point t of the grid is handed
  rows 120t .. 120t+119 of the patch matrix, the whole weight and the whole bias, and stores one [120,64] block:
  for row r and filter f the largest minus the smallest of  patch[r,c] + weight[f,c]  over the 288 entries c,
  plus bias[f]. The blocks tile the [7200,64] result; after the region one line unflattens it to [8,30,30,64].

  This module states what the body stores as one pure function of the three blocks it loads ('stored'), proves the
  body's triple, gives the proof data of the pipeline (each input buffer at its block, the output buffer at 'stored'
  of the three), and runs @main: every array of the pipeline ends at what the proof data say, and every other
  buffer at what the line after the region leaves. The frame claim is the run read at the three arguments, which
  no line writes.
-/
import proofs.«121963_j8091718386441_1_alg».proof.Proof.Gen.Kernel.Launch
import proofs.«121963_j8091718386441_1_alg».proof.Proof.Gen.Kernel.Skeleton
import proofs.«121963_j8091718386441_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- Core c's buffers after the fourteen host lines before the region, as a valuation. -/
abbrev entryVal (c : Dev nD) : Valuation τ sig (Elt F) := StableHlo.after (List.flatten [hostOps0]) (fun b => m (c, b))
/-- The same read at a TensorCore reference. -/
abbrev entry (c : Dev nD) (b : Ref sig .tc) : Buf (Elt F) ((c : Thread nD τ).loc b) := entryVal m c (Proc.devRef .tc b)

/-- No host line allocates. -/
theorem before_fresh : (hostOps0 : List (HloOp τ sig (Elt F))).Forall fun op => op.fresh = ∅ := by
  simp only [List.Forall]; repeat' constructor
theorem after_fresh : (hostOps1 : List (HloOp τ sig (Elt F))).Forall fun op => op.fresh = ∅ := by
  simp only [List.Forall]; repeat' constructor

/-- @main is the lines before the region, the region, the line after it. -/
theorem main_around (𝒱₀ : Variants) : Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_fresh) main_chain

/-- The line after the region touches only the pipeline's arrays and buffers that bypass the region, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp after_fresh) op hop
/-- and writes none of the pipeline's four arrays (it writes the unflattened result only). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No line before the region writes an argument: the region finds each as launched. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
theorem entry_arg2 (c : Dev nD) : entry m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- Nor does the line after it, and no argument is an array of the pipeline: each ends as launched. -/
theorem exit_arg0 (dats : (p : Fin _) → (c : Dev nD) → Dat τ (Elt F) Unit ℕ (UR sig nD τ) ℕ (cfgs p) c) (c : Dev nD) :
    Pipeline.afterTail₀ cfgs dats 0 (entryVal m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (entryVal m c) _ main_arg0 (by exact (by decide : ∀ w, Pipeline.arrRef spec0 w ≠ main_arg0))]
  exact entry_arg0 m c
theorem exit_arg1 (dats : (p : Fin _) → (c : Dev nD) → Dat τ (Elt F) Unit ℕ (UR sig nD τ) ℕ (cfgs p) c) (c : Dev nD) :
    Pipeline.afterTail₀ cfgs dats 0 (entryVal m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (entryVal m c) _ main_arg1 (by exact (by decide : ∀ w, Pipeline.arrRef spec0 w ≠ main_arg1))]
  exact entry_arg1 m c
theorem exit_arg2 (dats : (p : Fin _) → (c : Dev nD) → Dat τ (Elt F) Unit ℕ (UR sig nD τ) ℕ (cfgs p) c) (c : Dev nD) :
    Pipeline.afterTail₀ cfgs dats 0 (entryVal m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (entryVal m c) _ main_arg2 (by exact (by decide : ∀ w, Pipeline.arrRef spec0 w ≠ main_arg2))]
  exact entry_arg2 m c

/-! ## A window's block at a point -/

/-- Window w's block at point t, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- An input window's current staging buffer holds its block at every point, whether the point fetched it or an
    earlier one did and the block index has not moved since (the weight and the bias are fetched once). -/
theorem held0_of {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem held1_of {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem held2_of {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## What the body stores -/

/-- The body reads each input buffer whole and writes the output buffer whole. -/
abbrev patchRect : Rect S120x288 := Rect.unit (s := S120x288) ![0, 0] S120x288.size inb_S120x288_S120x288_0_0
abbrev weightRect : Rect S64x288 := Rect.unit (s := S64x288) ![0, 0] S64x288.size inb_S64x288_S64x288_0_0
abbrev biasRect : Rect S1x64 := Rect.unit (s := S1x64) ![0, 0] S1x64.size inb_S1x64_S1x64_0_0
abbrev outRect : Rect S120x64 := Rect.unit (s := S120x64) ![0, 0] S120x64.size inb_S120x64_S120x64_0_0

/-- The output buffer after the body, from the three blocks it loaded: its one store, of the body's arithmetic. -/
def stored (x0 : Vec F S120x288 .f32) (x1 : Vec F S64x288 .f32) (x2 : Vec F S1x64 .f32) : Vec F S120x64 .f32 :=
  View.canon [⟨outRect, k0_pay1 (View.ld x0 patchRect) (View.ld x1 weightRect) (View.ld x2 biasRect)⟩]

/-- The one store covers the buffer. -/
theorem stored_cover (p0 : Vec F S120x64 .f32) (y : S120x64.Idx) :
    ∃ pc ∈ ([⟨outRect, p0⟩] : List (View.Piece (Elt F) S120x64 .f32)), y ∈ pc.1.set :=
  View.cover_of_tiled [⟨outRect, p0⟩] S120x64.size (by rfl) y

/-! ## The body's triple -/

set_option maxHeartbeats 1000000 in
/-- On whole staging buffers, the inputs' at contents x0, x1, x2 and the output's at anything, the body runs to the
    continuation with the inputs' as they were and the output's at 'stored' of them. (The body also reads the
    output buffer before it overwrites it; nothing uses what it read.) -/
theorem body_triple (c : Dev nD) (E : Set ℕ) (i : grid0.Coords) (arg1 : Memref sig .tc .vmem S120x288 .f32) (harg1 : arg1.IsWhole) (arg2 : Memref sig .tc .vmem S64x288 .f32) (harg2 : arg2.IsWhole) (arg3 : Memref sig .tc .vmem S1x64 .f32) (harg3 : arg3.IsWhole) (arg4 : Memref sig .tc .vmem S120x64 .f32) (harg4 : arg4.IsWhole)
    (x0 : Vec F S120x288 .f32) (x1 : Vec F S64x288 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (stored x0 x1 x2)) -∗ K ⟨⟩))
      ⊢ wp frame (wpE (defs₀ (F := F)) Variants.none c none) E (cc0__tropconv_kernel i arg1 harg1 arg2 harg2 arg3 harg3 arg4 harg4) K := by
  simp only [cc0__tropconv_kernel_eq_skeleton]; unfold cc0__tropconv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_cover _)

/-! ## The pipeline's proof data -/

/-- On core c: the arrays as the region finds them; after the body at point t each input's buffer still at its
    block and the output's at 'stored' of the three blocks; the invariant the scoped rest and the generator
    register, untouched; nothing owed; full shares. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => stored (blockAt m c 0 t) (blockAt m c 1 t) (blockAt m c 2 t)
  Φ _ := Pipeline.ΦA spec0 c
  q _ := fullShare
  owed _ := 0

theorem dats_A (c : Dev nD) (w : Fin cfg0.W) : (dats m 0 c).A w = entry m c (Pipeline.arrRef spec0 w) := by
  dsimp only [dats]

theorem left0 (c : Dev nD) (t : Fin cfg0.N) : (dats m 0 c).after 0 t = blockAt m c 0 t := by dsimp only [dats]
theorem left1 (c : Dev nD) (t : Fin cfg0.N) : (dats m 0 c).after 1 t = blockAt m c 1 t := by dsimp only [dats]
theorem left2 (c : Dev nD) (t : Fin cfg0.N) : (dats m 0 c).after 2 t = blockAt m c 2 t := by dsimp only [dats]
theorem left3 (c : Dev nD) (t : Fin cfg0.N) : (dats m 0 c).after 3 t = stored (blockAt m c 0 t) (blockAt m c 1 t) (blockAt m c 2 t) := by dsimp only [dats]

theorem held0 (c : Dev nD) (t : Fin cfg0.N) (d) : (dats m 0 c).before 0 t d = blockAt m c 0 t :=
  held0_of m (dats m 0 c) (dats_A m c 0) (left0 m c) t d
theorem held1 (c : Dev nD) (t : Fin cfg0.N) (d) : (dats m 0 c).before 1 t d = blockAt m c 1 t :=
  held1_of m (dats m 0 c) (dats_A m c 1) (left1 m c) t d
theorem held2 (c : Dev nD) (t : Fin cfg0.N) (d) : (dats m 0 c).before 2 t d = blockAt m c 2 t :=
  held2_of m (dats m 0 c) (dats_A m c 2) (left2 m c) t d

/-! ## The body obligation at a point -/

/-- What the body is called with at point t, the four windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- At any point the inputs' buffers hold their blocks, so the body's triple applies; the invariant and what the
    core owes pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [held0, held1, held2]
  rw [show (dats m 0 c).Φ t.succ = (dats m 0 c).Φ t.castSucc from rfl,
    show (dats m 0 c).owesAt () t.succ = (dats m 0 c).owesAt () t.castSucc from rfl,
    left0, left1, left2, left3]
  iintro ⟨HΦ, Ho, ⟨%d0, H0⟩, ⟨%d1, H1⟩, ⟨%d2, H2⟩, ⟨%d3, H3⟩⟩
  iapply (body_triple c Set.univ (grid0.coords t) _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact body_at m c t

/-! ## The run and the frame -/

set_option backward.isDefEq.respectTransparency.types false in
/-- From any memory with zero counters every weakly fair execution of @main terminates; at its end each array of the
    pipeline holds what the proof data give (the result array: every block at what its point stored) and every
    other unscoped buffer what the line after the region leaves. -/
theorem run_main : θ_run defs (onTc (τ := τ) (main (F := F))) (s₀ m ρ) (Pipeline.FramePost cfgs (dats m) 0 (Pipeline.afterTail₀ cfgs (dats m) 0 (entryVal m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entryVal m) (opss := [hostOps1]) (hsub := tail_sub) (hfresh := tail_fresh) (hkeep := tail_keeps)
    (hmain := main_around m Variants.none) (hA := dats_A m) (hΦ := fun _ _ => rfl)

/-- The frame: the run read at the three arguments, each a buffer that bypasses the region and that no line writes. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (exit_arg0 m (dats m) c),
     ((h c).2 main_arg1 (Pipeline.mem_restRefs_of main_arg1 (by decide) (by decide))).trans (exit_arg1 m (dats m) c),
     ((h c).2 main_arg2 (Pipeline.mem_restRefs_of main_arg2 (by decide) (by decide))).trans (exit_arg2 m (dats m) c)⟩) (run_main m ρ)

end Cert.Kernel.Region

end
-- ==== Proof.KernelIdealRegion.lean ====
/-
  The one region of @main on its grid of 60 points, with the host lines around it.

  Before the region @main cuts the image into its nine 30x30 windows shifted by (ki, kj) in {0,1,2}^2, joins them
  along the channel axis into the patch array [8,30,30,288], flattens its three leading axes into 7200 rows, and
  lays the weight out as [64,288] (filter-major) and the bias as one row [1,64]. Point t of the grid is handed
  rows 120t .. 120t+119 of the patch matrix, the whole weight and the whole bias, and stores one [120,64] block:
  for row r and filter f the largest minus the smallest of  patch[r,c] + weight[f,c]  over the 288 entries c,
  plus bias[f]. The blocks tile the [7200,64] result; after the region one line unflattens it to [8,30,30,64].

  This module states what the body stores as one pure function of the three blocks it loads ('stored'), proves the
  body's triple, gives the proof data of the pipeline (each input buffer at its block, the output buffer at 'stored'
  of the three), and runs @main: every array of the pipeline ends at what the proof data say, and every other
  buffer at what the line after the region leaves. The frame claim is the run read at the three arguments, which
  no line writes.
-/
import proofs.«121963_j8091718386441_1_alg».proof.Proof.Gen.KernelIdeal.Launch
import proofs.«121963_j8091718386441_1_alg».proof.Proof.Gen.KernelIdeal.Skeleton
import proofs.«121963_j8091718386441_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- Core c's buffers after the fourteen host lines before the region, as a valuation. -/
abbrev entryVal (c : Dev nD) : Valuation τ sig (Elt F) := StableHlo.after (List.flatten [hostOps0]) (fun b => m (c, b))
/-- The same read at a TensorCore reference. -/
abbrev entry (c : Dev nD) (b : Ref sig .tc) : Buf (Elt F) ((c : Thread nD τ).loc b) := entryVal m c (Proc.devRef .tc b)

/-- No host line allocates. -/
theorem before_fresh : (hostOps0 : List (HloOp τ sig (Elt F))).Forall fun op => op.fresh = ∅ := by
  simp only [List.Forall]; repeat' constructor
theorem after_fresh : (hostOps1 : List (HloOp τ sig (Elt F))).Forall fun op => op.fresh = ∅ := by
  simp only [List.Forall]; repeat' constructor

/-- @main is the lines before the region, the region, the line after it. -/
theorem main_around (𝒱₀ : Variants) : Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_fresh) main_chain

/-- The line after the region touches only the pipeline's arrays and buffers that bypass the region, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp after_fresh) op hop
/-- and writes none of the pipeline's four arrays (it writes the unflattened result only). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No line before the region writes an argument: the region finds each as launched. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))
theorem entry_arg2 (c : Dev nD) : entry m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.nary_writes, StableHlo.reshape_writes, Finset.mem_singleton]
    repeat' apply And.intro
    all_goals exact StableHlo.devRef_ne_of_ne (by decide)))

/-- Nor does the line after it, and no argument is an array of the pipeline: each ends as launched. -/
theorem exit_arg0 (dats : (p : Fin _) → (c : Dev nD) → Dat τ (Elt F) Unit ℕ (UR sig nD τ) ℕ (cfgs p) c) (c : Dev nD) :
    Pipeline.afterTail₀ cfgs dats 0 (entryVal m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (entryVal m c) _ main_arg0 (by exact (by decide : ∀ w, Pipeline.arrRef spec0 w ≠ main_arg0))]
  exact entry_arg0 m c
theorem exit_arg1 (dats : (p : Fin _) → (c : Dev nD) → Dat τ (Elt F) Unit ℕ (UR sig nD τ) ℕ (cfgs p) c) (c : Dev nD) :
    Pipeline.afterTail₀ cfgs dats 0 (entryVal m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (entryVal m c) _ main_arg1 (by exact (by decide : ∀ w, Pipeline.arrRef spec0 w ≠ main_arg1))]
  exact entry_arg1 m c
theorem exit_arg2 (dats : (p : Fin _) → (c : Dev nD) → Dat τ (Elt F) Unit ℕ (UR sig nD τ) ℕ (cfgs p) c) (c : Dev nD) :
    Pipeline.afterTail₀ cfgs dats 0 (entryVal m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (entryVal m c) _ main_arg2 (by exact (by decide : ∀ w, Pipeline.arrRef spec0 w ≠ main_arg2))]
  exact entry_arg2 m c

/-! ## A window's block at a point -/

/-- Window w's block at point t, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- An input window's current staging buffer holds its block at every point, whether the point fetched it or an
    earlier one did and the block index has not moved since (the weight and the bias are fetched once). -/
theorem held0_of {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem held1_of {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem held2_of {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## What the body stores -/

/-- The body reads each input buffer whole and writes the output buffer whole. -/
abbrev patchRect : Rect S120x288 := Rect.unit (s := S120x288) ![0, 0] S120x288.size inb_S120x288_S120x288_0_0
abbrev weightRect : Rect S64x288 := Rect.unit (s := S64x288) ![0, 0] S64x288.size inb_S64x288_S64x288_0_0
abbrev biasRect : Rect S1x64 := Rect.unit (s := S1x64) ![0, 0] S1x64.size inb_S1x64_S1x64_0_0
abbrev outRect : Rect S120x64 := Rect.unit (s := S120x64) ![0, 0] S120x64.size inb_S120x64_S120x64_0_0

/-- The output buffer after the body, from the three blocks it loaded: its one store, of the body's arithmetic. -/
def stored (x0 : Vec F S120x288 .f32) (x1 : Vec F S64x288 .f32) (x2 : Vec F S1x64 .f32) : Vec F S120x64 .f32 :=
  View.canon [⟨outRect, k0_pay1 (View.ld x0 patchRect) (View.ld x1 weightRect) (View.ld x2 biasRect)⟩]

/-- The one store covers the buffer. -/
theorem stored_cover (p0 : Vec F S120x64 .f32) (y : S120x64.Idx) :
    ∃ pc ∈ ([⟨outRect, p0⟩] : List (View.Piece (Elt F) S120x64 .f32)), y ∈ pc.1.set :=
  View.cover_of_tiled [⟨outRect, p0⟩] S120x64.size (by rfl) y

/-! ## The body's triple -/

set_option maxHeartbeats 1000000 in
/-- On whole staging buffers, the inputs' at contents x0, x1, x2 and the output's at anything, the body runs to the
    continuation with the inputs' as they were and the output's at 'stored' of them. (The body also reads the
    output buffer before it overwrites it; nothing uses what it read.) -/
theorem body_triple (c : Dev nD) (E : Set ℕ) (i : grid0.Coords) (arg1 : Memref sig .tc .vmem S120x288 .f32) (harg1 : arg1.IsWhole) (arg2 : Memref sig .tc .vmem S64x288 .f32) (harg2 : arg2.IsWhole) (arg3 : Memref sig .tc .vmem S1x64 .f32) (harg3 : arg3.IsWhole) (arg4 : Memref sig .tc .vmem S120x64 .f32) (harg4 : arg4.IsWhole)
    (x0 : Vec F S120x288 .f32) (x1 : Vec F S64x288 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (stored x0 x1 x2)) -∗ K ⟨⟩))
      ⊢ wp frame (wpE (defs₀ (F := F)) Variants.none c none) E (cc0__tropconv_kernel i arg1 harg1 arg2 harg2 arg3 harg3 arg4 harg4) K := by
  simp only [cc0__tropconv_kernel_eq_skeleton]; unfold cc0__tropconv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_cover _)

/-! ## The pipeline's proof data -/

/-- On core c: the arrays as the region finds them; after the body at point t each input's buffer still at its
    block and the output's at 'stored' of the three blocks; the invariant the scoped rest and the generator
    register, untouched; nothing owed; full shares. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => stored (blockAt m c 0 t) (blockAt m c 1 t) (blockAt m c 2 t)
  Φ _ := Pipeline.ΦA spec0 c
  q _ := fullShare
  owed _ := 0

theorem dats_A (c : Dev nD) (w : Fin cfg0.W) : (dats m 0 c).A w = entry m c (Pipeline.arrRef spec0 w) := by
  dsimp only [dats]

theorem left0 (c : Dev nD) (t : Fin cfg0.N) : (dats m 0 c).after 0 t = blockAt m c 0 t := by dsimp only [dats]
theorem left1 (c : Dev nD) (t : Fin cfg0.N) : (dats m 0 c).after 1 t = blockAt m c 1 t := by dsimp only [dats]
theorem left2 (c : Dev nD) (t : Fin cfg0.N) : (dats m 0 c).after 2 t = blockAt m c 2 t := by dsimp only [dats]
theorem left3 (c : Dev nD) (t : Fin cfg0.N) : (dats m 0 c).after 3 t = stored (blockAt m c 0 t) (blockAt m c 1 t) (blockAt m c 2 t) := by dsimp only [dats]

theorem held0 (c : Dev nD) (t : Fin cfg0.N) (d) : (dats m 0 c).before 0 t d = blockAt m c 0 t :=
  held0_of m (dats m 0 c) (dats_A m c 0) (left0 m c) t d
theorem held1 (c : Dev nD) (t : Fin cfg0.N) (d) : (dats m 0 c).before 1 t d = blockAt m c 1 t :=
  held1_of m (dats m 0 c) (dats_A m c 1) (left1 m c) t d
theorem held2 (c : Dev nD) (t : Fin cfg0.N) (d) : (dats m 0 c).before 2 t d = blockAt m c 2 t :=
  held2_of m (dats m 0 c) (dats_A m c 2) (left2 m c) t d

/-! ## The body obligation at a point -/

/-- What the body is called with at point t, the four windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- At any point the inputs' buffers hold their blocks, so the body's triple applies; the invariant and what the
    core owes pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [held0, held1, held2]
  rw [show (dats m 0 c).Φ t.succ = (dats m 0 c).Φ t.castSucc from rfl,
    show (dats m 0 c).owesAt () t.succ = (dats m 0 c).owesAt () t.castSucc from rfl,
    left0, left1, left2, left3]
  iintro ⟨HΦ, Ho, ⟨%d0, H0⟩, ⟨%d1, H1⟩, ⟨%d2, H2⟩, ⟨%d3, H3⟩⟩
  iapply (body_triple c Set.univ (grid0.coords t) _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact body_at m c t

/-! ## The run and the frame -/

set_option backward.isDefEq.respectTransparency.types false in
/-- From any memory with zero counters every weakly fair execution of @main terminates; at its end each array of the
    pipeline holds what the proof data give (the result array: every block at what its point stored) and every
    other unscoped buffer what the line after the region leaves. -/
theorem run_main : θ_run defs (onTc (τ := τ) (main (F := F))) (s₀ m ρ) (Pipeline.FramePost cfgs (dats m) 0 (Pipeline.afterTail₀ cfgs (dats m) 0 (entryVal m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entryVal m) (opss := [hostOps1]) (hsub := tail_sub) (hfresh := tail_fresh) (hkeep := tail_keeps)
    (hmain := main_around m Variants.none) (hA := dats_A m) (hΦ := fun _ _ => rfl)

/-- The frame: the run read at the three arguments, each a buffer that bypasses the region and that no line writes. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (exit_arg0 m (dats m) c),
     ((h c).2 main_arg1 (Pipeline.mem_restRefs_of main_arg1 (by decide) (by decide))).trans (exit_arg1 m (dats m) c),
     ((h c).2 main_arg2 (Pipeline.mem_restRefs_of main_arg2 (by decide) (by decide))).trans (exit_arg2 m (dats m) c)⟩) (run_main m ρ)

end Cert.KernelIdeal.Region

end
-- ==== Proof.LibReduceMin.lean ====
/-
  A float reduction by the smaller of two values along ONE axis, read at a result index at the ideal values: the fold
  of min, started from the accumulator's value, over that axis's coordinates (the result index with the coordinate
  inserted). The library states this reading for the larger of two values; this is its mirror image, by the same two
  steps: the reduction is a fold over the set of source indices that drop to the result index (min commutes and
  associates), and that set is the image of the axis's coordinates under the insertion, which is injective.
-/
import Idealize.ShloMosaic.PureOps.Ideal.Laws

namespace Cert.Lib.ReduceMin

open Idealize.ShloMosaic

variable {φ : FTy}

/-- A float vector.multi_reduction minimumf over one axis, at the ideal values and at result index j: the fold of min
    from the accumulator's value over the coordinates k of the reduced axis, of the source at j with k inserted. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

end Cert.Lib.ReduceMin
-- ==== Proof.KernelBody.lean ====
/-
  What the body stores, entry by entry, over the extended reals.

  The body holds a [120,288] block x0 of patch rows, the [64,288] weight x1 (filter-major) and the bias row x2 [1,64].
  It lays x0 along a new middle axis and x1 along a new leading axis, adds them into the [120,64,288] array
  sums[r,f,k] = x0[r,k] + x1[f,k], reduces the last axis by max (from -inf) and by min (from +inf), subtracts, and adds
  the bias row laid down the 120 rows. So entry (r,f) of what it stores is the largest minus the smallest of the 288
  numbers x0[r,k] + x1[f,k], plus x2[0,f]. The casts between [120,288] and [120,1,288], and between [64,288] and
  [1,64,288], keep the flat position: r*288+k = (r*1+0)*288+k and f*288+k = (0*64+f)*288+k.
-/
import proofs.«121963_j8091718386441_1_alg».proof.Proof.KernelIdealRegion
import proofs.«121963_j8091718386441_1_alg».proof.Proof.LibReduceMin
import Idealize.ShloMosaic.Lib.Pipeline.Value
import Idealize.ShloMosaic.Lib.ValueIdx
import Idealize.ShloMosaic.PureOps.Ideal.Laws

noncomputable section

namespace Cert.KernelIdeal.KValue

open Idealize.ShloMosaic Idealize.ShloMosaic.TcCoe Idealize.ShloMosaic.ValueIdx
open Cert.KernelIdeal Cert.KernelIdeal.Gen Cert.KernelIdeal.Region

theorem hz : (![0, 0] : Fin 2 → Nat) = fun _ => 0 := funext fun a => by fin_cases a <;> rfl

/-- The [120,64,288] array the body reduces: sums[r,f,k] = x0[r,k] + x1[f,k]. -/
def sums (x0 : Vec Ideal S120x288 .f32) (x1 : Vec Ideal S64x288 .f32) : FVec Ideal S120x64x288 .f32 :=
  addf (broadcastTo S120x64x288 (shapeCast S120x1x288 (shapeCast S120x288 x0 shapeCasts_S120x288_S120x288) shapeCasts_S120x288_S120x1x288) broadcasts_S120x1x288_S120x64x288)
    (broadcastTo S120x64x288 (shapeCast S1x64x288 (shapeCast S64x288 x1 shapeCasts_S64x288_S64x288) shapeCasts_S64x288_S1x64x288) broadcasts_S1x64x288_S120x64x288)

/-- The body's arithmetic over that array. -/
theorem pay_eq (x0 : Vec Ideal S120x288 .f32) (x1 : Vec Ideal S64x288 .f32) (x2 : Vec Ideal S1x64 .f32) :
    k0_pay1 (F := Ideal) x0 x1 x2
      = addf (subf (multiReduction .maximumf [2] S120x64 (sums x0 x1) 0xFF800000#32 reduces_S120x64x288_S120x64 (.inl rfl) rfl)
            (multiReduction .minimumf [2] S120x64 (sums x0 x1) 0x7F800000#32 reduces_S120x64x288_S120x64 (.inl rfl) rfl))
          (broadcastTo S120x64 (shapeCast S1x64 x2 shapeCasts_S1x64_S1x64) broadcasts_S1x64_S120x64) := rfl

/-- sums[r,f,k] = x0[r,k] + x1[f,k]. -/
theorem sums_at (x0 : Vec Ideal S120x288 .f32) (x1 : Vec Ideal S64x288 .f32) (r : Fin 120) (f : Fin 64) (k : Fin 288) :
    sums x0 x1 (ix3 r f k) = x0 (ix2 r k) + x1 (ix2 f k) := by
  unfold sums
  rw [shapeCast_self, shapeCast_self]
  refine congrArg₂ (· + ·) ?_ ?_
  · refine (broadcastTo_apply _ broadcasts_S120x1x288_S120x64x288 (ix3 r f k) (ix3 r 0 k) (fun a => ?_)).trans ?_
    · match a with
      | ⟨0, _⟩ => show r.val = if (120 : Nat) = 1 then 0 else r.val; rw [if_neg (by decide)]
      | ⟨1, _⟩ => show 0 = if (1 : Nat) = 1 then 0 else f.val; rw [if_pos rfl]
      | ⟨2, _⟩ => show k.val = if (288 : Nat) = 1 then 0 else k.val; rw [if_neg (by decide)]
    · exact shapeCast_apply x0 shapeCasts_S120x288_S120x1x288 (ix3 r 0 k) (ix2 r k) (by
        rw [Shape.rowMajor_val_two, Shape.rowMajor_val_three]
        show r.val * 288 + k.val = (r.val * 1 + 0) * 288 + k.val
        omega)
  · refine (broadcastTo_apply _ broadcasts_S1x64x288_S120x64x288 (ix3 r f k) (ix3 0 f k) (fun a => ?_)).trans ?_
    · match a with
      | ⟨0, _⟩ => show 0 = if (1 : Nat) = 1 then 0 else r.val; rw [if_pos rfl]
      | ⟨1, _⟩ => show f.val = if (64 : Nat) = 1 then 0 else f.val; rw [if_neg (by decide)]
      | ⟨2, _⟩ => show k.val = if (288 : Nat) = 1 then 0 else k.val; rw [if_neg (by decide)]
    · exact shapeCast_apply x1 shapeCasts_S64x288_S1x64x288 (ix3 0 f k) (ix2 f k) (by
        rw [Shape.rowMajor_val_two, Shape.rowMajor_val_three]
        show f.val * 288 + k.val = (0 * 64 + f.val) * 288 + k.val
        omega)

/-- The bias row laid down the rows, at (r,f), is x2[0,f]. -/
theorem bias_at (x2 : Vec Ideal S1x64 .f32) (r : Fin 120) (f : Fin 64) :
    broadcastTo S120x64 (shapeCast S1x64 x2 shapeCasts_S1x64_S1x64) broadcasts_S1x64_S120x64 (ix2 r f) = x2 (ix2 0 f) := by
  rw [shapeCast_self]
  exact broadcastTo_apply x2 broadcasts_S1x64_S120x64 (ix2 r f) (ix2 0 f) (fun a => by
    match a with
    | ⟨0, _⟩ => show 0 = if (1 : Nat) = 1 then 0 else r.val; rw [if_pos rfl]
    | ⟨1, _⟩ => show f.val = if (64 : Nat) = 1 then 0 else f.val; rw [if_neg (by decide)])

/-- Inserting k as the last coordinate of (r,f) is (r,f,k). -/
theorem lift_eq (r : Fin 120) (f : Fin 64) (k : Fin 288) :
    reduces_S120x64x288_S120x64.lift (ix2 r f) k = ix3 r f k :=
  funext fun a => Fin.ext (by match a with | ⟨0, _⟩ => rfl | ⟨1, _⟩ => rfl | ⟨2, _⟩ => rfl)

/-- The sum array along the reduced axis at (r,f): entry k is x0[r,k] + x1[f,k]. -/
theorem fibre (x0 : Vec Ideal S120x288 .f32) (x1 : Vec Ideal S64x288 .f32) (r : Fin 120) (f : Fin 64) (k : Fin 288) :
    (sums x0 x1 ∘ reduces_S120x64x288_S120x64.lift (ix2 r f)) k = x0 (ix2 r k) + x1 (ix2 f k) := by
  show sums x0 x1 (reduces_S120x64x288_S120x64.lift (ix2 r f) k) = _
  rw [lift_eq, sums_at]

/-- The max-reduction at (r,f): the largest of the 288 sums and -inf. -/
theorem max_at (x0 : Vec Ideal S120x288 .f32) (x1 : Vec Ideal S64x288 .f32) (r : Fin 120) (f : Fin 64) :
    multiReduction .maximumf [2] S120x64 (sums x0 x1) 0xFF800000#32 reduces_S120x64x288_S120x64 (.inl rfl) rfl (ix2 r f)
      = (Finset.univ : Finset (Fin 288)).fold max (Ideal.ofBits .f32 0xFF800000#32) (fun k => x0 (ix2 r k) + x1 (ix2 f k)) := by
  refine (Ideal.multiReduction_maximumf_single (sums x0 x1) 0xFF800000#32 reduces_S120x64x288_S120x64 (.inl rfl) rfl (ix2 r f)).trans ?_
  exact Finset.fold_congr (fun k _ => fibre x0 x1 r f k)

/-- The min-reduction at (r,f): the smallest of the 288 sums and +inf. -/
theorem min_at (x0 : Vec Ideal S120x288 .f32) (x1 : Vec Ideal S64x288 .f32) (r : Fin 120) (f : Fin 64) :
    multiReduction .minimumf [2] S120x64 (sums x0 x1) 0x7F800000#32 reduces_S120x64x288_S120x64 (.inl rfl) rfl (ix2 r f)
      = (Finset.univ : Finset (Fin 288)).fold min (Ideal.ofBits .f32 0x7F800000#32) (fun k => x0 (ix2 r k) + x1 (ix2 f k)) := by
  refine (Cert.Lib.ReduceMin.multiReduction_minimumf_single (sums x0 x1) 0x7F800000#32 reduces_S120x64x288_S120x64 (.inl rfl) rfl (ix2 r f)).trans ?_
  exact Finset.fold_congr (fun k _ => fibre x0 x1 r f k)

/-- Equal summands give equal sums, equal operands equal differences (stated once over plain extended reals, so that
    the readings of the two reductions are combined without ever opening a reduction). -/
theorem add_eq {a a' b b' : Ideal .f32} (ha : a = a') (hb : b = b') : a + b = a' + b' := ha ▸ hb ▸ rfl
theorem sub_eq {a a' b b' : Ideal .f32} (ha : a = a') (hb : b = b') : a - b = a' - b' := ha ▸ hb ▸ rfl

/-- Entry (r,f) of the body's result: largest minus smallest of x0[r,k] + x1[f,k] over k, plus x2[0,f]. -/
theorem pay_at (x0 : Vec Ideal S120x288 .f32) (x1 : Vec Ideal S64x288 .f32) (x2 : Vec Ideal S1x64 .f32) (r : Fin 120) (f : Fin 64) :
    k0_pay1 (F := Ideal) x0 x1 x2 (ix2 r f)
      = ((Finset.univ : Finset (Fin 288)).fold max (Ideal.ofBits .f32 0xFF800000#32) (fun k => x0 (ix2 r k) + x1 (ix2 f k))
          - (Finset.univ : Finset (Fin 288)).fold min (Ideal.ofBits .f32 0x7F800000#32) (fun k => x0 (ix2 r k) + x1 (ix2 f k)))
        + x2 (ix2 0 f) :=
  (congrFun (pay_eq x0 x1 x2) (ix2 r f)).trans
    ((addf_apply _ _ (ix2 r f)).trans
      (add_eq ((subf_apply _ _ (ix2 r f)).trans (sub_eq (max_at x0 x1 r f) (min_at x0 x1 r f))) (bias_at x2 r f)))

/-- The same for the output buffer's contents after the body: its one store covers the buffer, and the three loads
    read the input buffers whole. -/
theorem stored_at (x0 : Vec Ideal S120x288 .f32) (x1 : Vec Ideal S64x288 .f32) (x2 : Vec Ideal S1x64 .f32) (r : Fin 120) (f : Fin 64) :
    stored (F := Ideal) x0 x1 x2 (ix2 r f)
      = ((Finset.univ : Finset (Fin 288)).fold max (Ideal.ofBits .f32 0xFF800000#32) (fun k => x0 (ix2 r k) + x1 (ix2 f k))
          - (Finset.univ : Finset (Fin 288)).fold min (Ideal.ofBits .f32 0x7F800000#32) (fun k => x0 (ix2 r k) + x1 (ix2 f k)))
        + x2 (ix2 0 f) := by
  unfold stored
  rw [View.canon_unit_zero hz]
  simp only [View.ld_unit_zero (S := S120x288) hz, View.ld_unit_zero (S := S64x288) hz, View.ld_unit_zero (S := S1x64) hz]
  exact pay_at x0 x1 x2 r f

end Cert.KernelIdeal.KValue

end
-- ==== Proof.KernelRows.lean ====
/-
  The [7200,64] result array after the region, as one function of the three arrays the region reads.

  P2 [7200,288] is the flattened patch matrix, wT [64,288] the filter-major weight, b2 [1,64] the bias row. Point t of
  the grid is handed rows 120t .. 120t+119 of P2 (block index (t,0) of size [120,288]), all of wT and all of b2 (block
  index (0,0)), and writes back rows 120t .. 120t+119 of the result (block index (t,0) of size [120,64]). A block's
  coordinate on an axis is always index * size + the coordinate inside the block, so row p of the block at point t is
  row 120t+p of the array, in the input and in the output alike: what point t writes back is block t of

      rows[n,f] = (largest - smallest of P2[n,k] + wT[f,k] over k) + b2[0,f].

  The 60 blocks tile the 7200 rows (row n lies in the block of point n / 120), so the array ends at 'rows' everywhere.
-/
import proofs.«121963_j8091718386441_1_alg».proof.Proof.KernelBody

set_option maxRecDepth 16384

noncomputable section

namespace Cert.KernelIdeal.KValue

open Idealize.ShloMosaic Idealize.ShloMosaic.TcCoe Idealize.ShloMosaic.ValueIdx
open Idealize.ShloMosaic.Pipeline (Dat Cfg Window)
open Cert.KernelIdeal Cert.KernelIdeal.Gen Cert.KernelIdeal.Region

variable (m : (ℓ : Loc nD τ sig) → Buf (Elt Ideal) ℓ)

/-- The result array as a function of the flattened patch matrix, the filter-major weight and the bias row. -/
def rows (P2 : S7200x288.Idx → Ideal .f32) (wT : S64x288.Idx → Ideal .f32) (b2 : S1x64.Idx → Ideal .f32) : S7200x64.Idx → Ideal .f32 := fun i =>
  ((Finset.univ : Finset (Fin 288)).fold max (Ideal.ofBits .f32 0xFF800000#32) (fun k => P2 (ix2 (i 0) k) + wT (ix2 (i 1) k))
    - (Finset.univ : Finset (Fin 288)).fold min (Ideal.ofBits .f32 0x7F800000#32) (fun k => P2 (ix2 (i 0) k) + wT (ix2 (i 1) k)))
  + b2 (ix2 0 (i 1))

/-- The printed index maps over the grid: the patch rows and the result rows move with the point, the weight and the
    bias stay at block (0,0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of 'rows' of the three arrays as the region finds them. -/
theorem flushed_eq (c : Dev nD) (t : Fin cfg0.N) :
    (dats m 0 c).flushed 3 t
      = ((cfg0.win 3).blk t).view.read (Elt Ideal) (rows (entry m c main_v10) (entry m c main_v12) (entry m c main_v13)) := by
  show (cfg0.win 3).cut (grid0.coords t) ((dats m 0 c).after 3 t) = _
  rw [left3]
  obtain ⟨e00, e01, e10, e11, e20, e21, e30, e31⟩ := idx_facts t
  funext j
  obtain ⟨p, q, rfl⟩ : ∃ (p : Fin 120) (q : Fin 64), j = ix2 p q := ⟨j 0, j 1, eq_ix2 j⟩
  show stored (blockAt m c 0 t) (blockAt m c 1 t) (blockAt m c 2 t) (ix2 p q)
      = rows (entry m c main_v10) (entry m c main_v12) (entry m c main_v13) (((cfg0.win 3).blk t).view.emb (ix2 p q))
  refine (stored_at (blockAt m c 0 t) (blockAt m c 1 t) (blockAt m c 2 t) p q).trans ?_
  unfold rows
  have h0 : ∀ k : Fin 288, blockAt m c 0 t (ix2 p k)
      = entry m c main_v10 (ix2 ((((cfg0.win 3).blk t).view.emb (ix2 p q)) 0) k) := fun k => by
    show entry m c main_v10 (((cfg0.win 0).blk t).view.emb (ix2 p k)) = _
    refine congrArg (entry m c main_v10) (funext fun a => Fin.ext ?_)
    match a with
    | ⟨0, _⟩ => show win0_0.index t (0 : Fin 2) * 120 + 1 * p.val = win0_3.index t (0 : Fin 2) * 120 + 1 * p.val; omega
    | ⟨1, _⟩ => show win0_0.index t (1 : Fin 2) * 288 + 1 * k.val = k.val; omega
  have h1 : ∀ k : Fin 288, blockAt m c 1 t (ix2 q k)
      = entry m c main_v12 (ix2 ((((cfg0.win 3).blk t).view.emb (ix2 p q)) 1) k) := fun k => by
    show entry m c main_v12 (((cfg0.win 1).blk t).view.emb (ix2 q k)) = _
    refine congrArg (entry m c main_v12) (funext fun a => Fin.ext ?_)
    match a with
    | ⟨0, _⟩ => show win0_1.index t (0 : Fin 2) * 64 + 1 * q.val = win0_3.index t (1 : Fin 2) * 64 + 1 * q.val; omega
    | ⟨1, _⟩ => show win0_1.index t (1 : Fin 2) * 288 + 1 * k.val = k.val; omega
  have h2 : blockAt m c 2 t (ix2 0 q)
      = entry m c main_v13 (ix2 0 ((((cfg0.win 3).blk t).view.emb (ix2 p q)) 1)) := by
    show entry m c main_v13 (((cfg0.win 2).blk t).view.emb (ix2 0 q)) = _
    refine congrArg (entry m c main_v13) (funext fun a => Fin.ext ?_)
    match a with
    | ⟨0, _⟩ => show win0_2.index t (0 : Fin 2) * 1 + 1 * 0 = 0; omega
    | ⟨1, _⟩ => show win0_2.index t (1 : Fin 2) * 64 + 1 * q.val = win0_3.index t (1 : Fin 2) * 64 + 1 * q.val; omega
  simp only [h0, h1, h2]

/-- An index of the result array is in point t's block iff each coordinate is in the block's range on its axis. -/
theorem mem_blk (t : Fin cfg0.N) (i : S7200x64.Idx) :
    i ∈ ((cfg0.win 3).blk t).view.set ↔ ∀ a : Fin 2, win0_3.index t a * S120x64.size a ≤ (i a).val ∧ (i a).val < win0_3.index t a * S120x64.size a + S120x64.size a := by
  show i ∈ ((View.whole main_v14).slice (win0_3.rect t)).set ↔ _
  rw [View.set_slice_whole, Rect.mem_set_unit]
  exact Iff.rfl

/-- Row n lies in the block of point n / 120. -/
theorem covered (i : S7200x64.Idx) :
    ∃ t : Fin cfg0.N, (cfg0.win 3).flush t = true ∧ i ∈ ((cfg0.win 3).blk t).view.set := by
  have hi0 : (i 0).val < 7200 := (i 0).isLt
  have hi1 : (i 1).val < 64 := (i 1).isLt
  have hN : cfg0.N = 60 := N_0
  have ht : (i 0).val / 120 < cfg0.N := by rw [hN]; omega
  obtain ⟨-, -, -, -, -, -, e30, e31⟩ := idx_facts ⟨(i 0).val / 120, ht⟩
  refine ⟨⟨(i 0).val / 120, ht⟩, flush0_3 _, ?_⟩
  rw [mem_blk]
  intro a
  match a with
  | ⟨0, _⟩ =>
    show win0_3.index ⟨(i 0).val / 120, ht⟩ (0 : Fin 2) * 120 ≤ (i 0).val ∧ (i 0).val < win0_3.index ⟨(i 0).val / 120, ht⟩ (0 : Fin 2) * 120 + 120
    rw [e30]; show (i 0).val / 120 * 120 ≤ (i 0).val ∧ (i 0).val < (i 0).val / 120 * 120 + 120; omega
  | ⟨1, _⟩ =>
    show win0_3.index ⟨(i 0).val / 120, ht⟩ (1 : Fin 2) * 64 ≤ (i 1).val ∧ (i 1).val < win0_3.index ⟨(i 0).val / 120, ht⟩ (1 : Fin 2) * 64 + 64
    rw [e31]; omega

/-- The result array after the region. -/
theorem final (c : Dev nD) :
    (dats m 0 c).arrAt 3 cfg0.N = rows (entry m c main_v10) (entry m c main_v12) (entry m c main_v13) :=
  (dats m 0 c).arrAt_eq_of_cover 3 _ (fun t _ => flushed_eq m c t) covered

end Cert.KernelIdeal.KValue

end
-- ==== Proof.Spread.lean ====
/-
  The function both programs compute, over the extended reals.

  P is the patch array [8,30,30,288]: P[b,y,x,k] is entry k of the 3x3x32 window of the image at output position
  (b,y,x). w is the weight [1,1,1,288,64], bias the vector [64]. For output position (b,y,x) and filter f take the
  288 numbers  P[b,y,x,k] + w[0,0,0,k,f];  the result is their largest minus their smallest, plus bias[f]. The
  largest is taken together with -inf and the smallest together with +inf (the words 0xFF800000 and 0x7F800000, the
  values both programs start their reductions from).
-/
import Idealize.ShloMosaic.PureOps.Ideal
import Idealize.ShloMosaic.Lib.ValueIdx

noncomputable section

namespace Cert.Spread

open Idealize.ShloMosaic Idealize.ShloMosaic.ValueIdx

/-- The 288 numbers of output position (i 0, i 1, i 2) and filter i 3: patch entry k plus the weight of (k, filter). -/
def shifted (P : (⟨4, ![8, 30, 30, 288]⟩ : Shape).Idx → Ideal .f32) (w : (⟨5, ![1, 1, 1, 288, 64]⟩ : Shape).Idx → Ideal .f32)
    (i : (⟨4, ![8, 30, 30, 64]⟩ : Shape).Idx) (k : Fin 288) : Ideal .f32 :=
  P (ix4 (i 0) (i 1) (i 2) k) + w (ix5 0 0 0 k (i 3))

/-- Largest minus smallest of them, plus the filter's bias. -/
def spread (P : (⟨4, ![8, 30, 30, 288]⟩ : Shape).Idx → Ideal .f32) (w : (⟨5, ![1, 1, 1, 288, 64]⟩ : Shape).Idx → Ideal .f32)
    (b : (⟨1, ![64]⟩ : Shape).Idx → Ideal .f32) : (⟨4, ![8, 30, 30, 64]⟩ : Shape).Idx → Ideal .f32 := fun i =>
  ((Finset.univ : Finset (Fin 288)).fold max (Ideal.ofBits .f32 0xFF800000#32) (shifted P w i)
    - (Finset.univ : Finset (Fin 288)).fold min (Ideal.ofBits .f32 0x7F800000#32) (shifted P w i))
  + b (ix1 (i 3))

end Cert.Spread

end
-- ==== Proof.KernelResult.lean ====
/-
  The kernel program's result is 'spread' of the patch array, the weight and the bias.

  The region's result [7200,64] is 'rows' of the flattened patch matrix P2, the filter-major weight wT and the bias row
  b2 (the module before this one), and the line after the region reads it back as [8,30,30,64]. With n = (b*30+y)*30+x
  the flat position of (b,y,x):
    the result at (b,y,x,f) is rows[n,f], since ((b*30+y)*30+x)*64+f = n*64+f;
    P2[n,k] is the patch array at (b,y,x,k), since ((b*30+y)*30+x)*288+k = n*288+k;
    wT[f,k] is the transpose of the weight read as [288,64], that is the weight at (0,0,0,k,f), flat position k*64+f;
    b2[0,f] is bias[f].
  So each of the 288 numbers of 'rows' at (n,f) is the corresponding number of 'spread' at (b,y,x,f), and so are the
  largest, the smallest and the bias term. The patch array (nine shifted 30x30 windows of the image joined along the
  channel axis) is carried as one term and never opened.
-/
import proofs.«121963_j8091718386441_1_alg».proof.Proof.KernelRows
import proofs.«121963_j8091718386441_1_alg».proof.Proof.Spread
import Idealize.ShloMosaic.PureOps.Ideal
import Idealize.ShloMosaic.Lib.StableHlo.Run
import Idealize.ShloMosaic.Lib.Pipeline.Value

noncomputable section

namespace Cert.KernelIdeal.KValue

open Idealize.ShloMosaic Idealize.ShloMosaic.TcCoe Idealize.ShloMosaic.ValueIdx Idealize.ShloMosaic.StableHlo
open Idealize.ShloMosaic.Pipeline (Dat Cfg Window)
open Cert.KernelIdeal Cert.KernelIdeal.Gen Cert.KernelIdeal.Region

variable (m : (ℓ : Loc nD τ sig) → Buf (Elt Ideal) ℓ)

/-! ## The arrays the region reads, from the arguments -/

/-- The patch array as @main builds it from the image: the nine windows shifted by (ki,kj), joined along the channels. -/
def patchesOf (x0 : Vec Ideal S8x32x32x32 .f32) : Vec Ideal S8x30x30x288 .f32 :=
  concatenate S8x30x30x288 3
    [⟨S8x30x30x32, extractStridedSlice S8x30x30x32 ![0, 0, 0, 0] x0 slices_S8x32x32x32_S8x30x30x32_0_0_0_0⟩,
      ⟨S8x30x30x32, extractStridedSlice S8x30x30x32 ![0, 0, 1, 0] x0 slices_S8x32x32x32_S8x30x30x32_0_0_1_0⟩,
      ⟨S8x30x30x32, extractStridedSlice S8x30x30x32 ![0, 0, 2, 0] x0 slices_S8x32x32x32_S8x30x30x32_0_0_2_0⟩,
      ⟨S8x30x30x32, extractStridedSlice S8x30x30x32 ![0, 1, 0, 0] x0 slices_S8x32x32x32_S8x30x30x32_0_1_0_0⟩,
      ⟨S8x30x30x32, extractStridedSlice S8x30x30x32 ![0, 1, 1, 0] x0 slices_S8x32x32x32_S8x30x30x32_0_1_1_0⟩,
      ⟨S8x30x30x32, extractStridedSlice S8x30x30x32 ![0, 1, 2, 0] x0 slices_S8x32x32x32_S8x30x30x32_0_1_2_0⟩,
      ⟨S8x30x30x32, extractStridedSlice S8x30x30x32 ![0, 2, 0, 0] x0 slices_S8x32x32x32_S8x30x30x32_0_2_0_0⟩,
      ⟨S8x30x30x32, extractStridedSlice S8x30x30x32 ![0, 2, 1, 0] x0 slices_S8x32x32x32_S8x30x30x32_0_2_1_0⟩,
      ⟨S8x30x30x32, extractStridedSlice S8x30x30x32 ![0, 2, 2, 0] x0 slices_S8x32x32x32_S8x30x30x32_0_2_2_0⟩]
    concatenates_S8x30x30x32_S8x30x30x32_S8x30x30x32_S8x30x30x32_S8x30x30x32_S8x30x30x32_S8x30x30x32_S8x30x30x32_S8x30x30x32_S8x30x30x288_d3

theorem entry_patches (c : Dev nD) :
    entry m c main_v10 = shapeCast S7200x288 (patchesOf (m ((c : Thread nD τ).loc main_arg0))) shapeCasts_S8x30x30x288_S7200x288 := by
  show StableHlo.after hostOps0 (fun b => m (c, b)) (Proc.devRef .tc main_v10) = _
  after_results
  rfl

theorem entry_weight (c : Dev nD) :
    entry m c main_v12 = transpose S64x288 [1, 0] (shapeCast S288x64 (m ((c : Thread nD τ).loc main_arg1)) shapeCasts_S1x1x1x288x64_S288x64) transposes_S288x64_S64x288_1_0 := by
  show StableHlo.after hostOps0 (fun b => m (c, b)) (Proc.devRef .tc main_v12) = _
  after_results
  rfl

theorem entry_bias (c : Dev nD) :
    entry m c main_v13 = shapeCast S1x64 (m ((c : Thread nD τ).loc main_arg2)) shapeCasts_S64_S1x64 := by
  show StableHlo.after hostOps0 (fun b => m (c, b)) (Proc.devRef .tc main_v13) = _
  after_results
  rfl

/-! ## The line after the region -/

/-- The program's result buffer ends at the region's result array read as [8,30,30,64]. -/
theorem result_arr (c : Dev nD) :
    Pipeline.afterTail₀ cfgs (dats m) 0 (entryVal m) [hostOps1] c main_v15
      = shapeCast S8x30x30x64 ((dats m 0 c).arrAt 3 cfg0.N) shapeCasts_S7200x64_S8x30x30x64 := by
  unfold Pipeline.afterTail₀
  show StableHlo.after hostOps1 _ (Proc.devRef .tc main_v15) = _
  after_results
  show shapeCast S8x30x30x64 (Pipeline.withArrays spec0 c (entryVal m c) (fun w => (dats m 0 c).arrAt w cfg0.N) (Proc.devRef .tc (Pipeline.arrRef spec0 3))) shapeCasts_S7200x64_S8x30x30x64 = _
  exact congrArg (fun v => shapeCast S8x30x30x64 v shapeCasts_S7200x64_S8x30x30x64)
    (Pipeline.withArrays_arr spec0 launch0.win.arr_inj c (entryVal m c) (fun w => (dats m 0 c).arrAt w cfg0.N) 3)

/-! ## 'rows' read as [8,30,30,64] is 'spread' -/

theorem rows_is_spread (P : Vec Ideal S8x30x30x288 .f32) (x1 : Vec Ideal S1x1x1x288x64 .f32) (x2 : Vec Ideal S64 .f32) :
    shapeCast S8x30x30x64
        (rows (shapeCast S7200x288 P shapeCasts_S8x30x30x288_S7200x288)
          (transpose S64x288 [1, 0] (shapeCast S288x64 x1 shapeCasts_S1x1x1x288x64_S288x64) transposes_S288x64_S64x288_1_0)
          (shapeCast S1x64 x2 shapeCasts_S64_S1x64))
        shapeCasts_S7200x64_S8x30x30x64
      = Cert.Spread.spread P x1 x2 := by
  funext i
  obtain ⟨b, y, x, f, rfl⟩ : ∃ (b : Fin 8) (y : Fin 30) (x : Fin 30) (f : Fin 64), i = ix4 b y x f := ⟨i 0, i 1, i 2, i 3, eq_ix4 i⟩
  have hb : b.val < 8 := b.isLt
  have hy : y.val < 30 := y.isLt
  have hx : x.val < 30 := x.isLt
  have hn : (b.val * 30 + y.val) * 30 + x.val < 7200 := by omega
  -- the result at (b,y,x,f) is rows at (n,f)
  refine (shapeCast_apply _ shapeCasts_S7200x64_S8x30x30x64 (ix4 b y x f) (ix2 (⟨(b.val * 30 + y.val) * 30 + x.val, hn⟩ : Fin 7200) f) (by
    rw [Shape.rowMajor_val_two, Shape.rowMajor_val_four]
    show ((b.val * 30 + y.val) * 30 + x.val) * 64 + f.val = ((b.val * 30 + y.val) * 30 + x.val) * 64 + f.val
    rfl)).trans ?_
  have hP : ∀ k : Fin 288, shapeCast S7200x288 P shapeCasts_S8x30x30x288_S7200x288 (ix2 (⟨(b.val * 30 + y.val) * 30 + x.val, hn⟩ : Fin 7200) k) = P (ix4 b y x k) := fun k =>
    shapeCast_apply P shapeCasts_S8x30x30x288_S7200x288 (ix2 (⟨(b.val * 30 + y.val) * 30 + x.val, hn⟩ : Fin 7200) k) (ix4 b y x k) (by
      rw [Shape.rowMajor_val_two, Shape.rowMajor_val_four]
      show ((b.val * 30 + y.val) * 30 + x.val) * 288 + k.val = ((b.val * 30 + y.val) * 30 + x.val) * 288 + k.val
      rfl)
  have hW : ∀ k : Fin 288, transpose S64x288 [1, 0] (shapeCast S288x64 x1 shapeCasts_S1x1x1x288x64_S288x64) transposes_S288x64_S64x288_1_0 (ix2 f k) = x1 (ix5 0 0 0 k f) := fun k =>
    (transpose_apply [1, 0] (shapeCast S288x64 x1 shapeCasts_S1x1x1x288x64_S288x64) transposes_S288x64_S64x288_1_0 (ix2 f k) (ix2 k f) (fun a => by
      match a with
      | ⟨0, _⟩ => rfl
      | ⟨1, _⟩ => rfl)).trans
    (shapeCast_apply x1 shapeCasts_S1x1x1x288x64_S288x64 (ix2 k f) (ix5 0 0 0 k f) (by
      rw [Shape.rowMajor_val_two, Shape.rowMajor_val_five]
      show (((0 * 1 + 0) * 1 + 0) * 288 + k.val) * 64 + f.val = k.val * 64 + f.val
      omega))
  have hB : shapeCast S1x64 x2 shapeCasts_S64_S1x64 (ix2 0 f) = x2 (ix1 f) :=
    shapeCast_apply x2 shapeCasts_S64_S1x64 (ix2 0 f) (ix1 f) (by
      rw [Shape.rowMajor_val_two, Shape.rowMajor_val_one]
      show f.val = 0 * 64 + f.val
      omega)
  have hterm : ∀ k : Fin 288,
      shapeCast S7200x288 P shapeCasts_S8x30x30x288_S7200x288 (ix2 (⟨(b.val * 30 + y.val) * 30 + x.val, hn⟩ : Fin 7200) k)
        + transpose S64x288 [1, 0] (shapeCast S288x64 x1 shapeCasts_S1x1x1x288x64_S288x64) transposes_S288x64_S64x288_1_0 (ix2 f k)
      = Cert.Spread.shifted P x1 (ix4 b y x f) k := fun k => by
    rw [hP k, hW k]; rfl
  show ((Finset.univ : Finset (Fin 288)).fold max (Ideal.ofBits .f32 0xFF800000#32) (fun k =>
          shapeCast S7200x288 P shapeCasts_S8x30x30x288_S7200x288 (ix2 (⟨(b.val * 30 + y.val) * 30 + x.val, hn⟩ : Fin 7200) k)
            + transpose S64x288 [1, 0] (shapeCast S288x64 x1 shapeCasts_S1x1x1x288x64_S288x64) transposes_S288x64_S64x288_1_0 (ix2 f k))
        - (Finset.univ : Finset (Fin 288)).fold min (Ideal.ofBits .f32 0x7F800000#32) (fun k =>
          shapeCast S7200x288 P shapeCasts_S8x30x30x288_S7200x288 (ix2 (⟨(b.val * 30 + y.val) * 30 + x.val, hn⟩ : Fin 7200) k)
            + transpose S64x288 [1, 0] (shapeCast S288x64 x1 shapeCasts_S1x1x1x288x64_S288x64) transposes_S288x64_S64x288_1_0 (ix2 f k)))
      + shapeCast S1x64 x2 shapeCasts_S64_S1x64 (ix2 0 f)
      = ((Finset.univ : Finset (Fin 288)).fold max (Ideal.ofBits .f32 0xFF800000#32) (Cert.Spread.shifted P x1 (ix4 b y x f))
        - (Finset.univ : Finset (Fin 288)).fold min (Ideal.ofBits .f32 0x7F800000#32) (Cert.Spread.shifted P x1 (ix4 b y x f)))
      + x2 (ix1 f)
  exact congrArg₂ (fun a b : Ideal .f32 => a + b)
    (congrArg₂ (fun a b : Ideal .f32 => a - b) (Finset.fold_congr (fun k _ => hterm k)) (Finset.fold_congr (fun k _ => hterm k))) hB

/-! ## The program's result -/

/-- The kernel program's result buffer ends at 'spread' of its patch array, the weight and the bias. -/
theorem result_eq (c : Dev nD) :
    Pipeline.afterTail₀ cfgs (dats m) 0 (entryVal m) [hostOps1] c main_v15
      = Cert.Spread.spread (patchesOf (m ((c : Thread nD τ).loc main_arg0))) (m ((c : Thread nD τ).loc main_arg1)) (m ((c : Thread nD τ).loc main_arg2)) := by
  refine (result_arr m c).trans ?_
  rw [final, entry_patches, entry_weight, entry_bias]
  exact rows_is_spread _ _ _

end Cert.KernelIdeal.KValue

end
-- ==== Proof.RefSpread.lean ====
/-
  The reference computes 'spread' of the patch array, the weight and the bias.

  The reference broadcasts the patch array along a new last axis and the weight along the four leading axes, adds
  them into [8,30,30,288,64], reduces axis 3 by max (from -inf) and by min (from +inf), subtracts, and adds the bias
  broadcast along the leading axes. At result index (b,y,x,f) each reduction runs over the 288 entries
  (b,y,x,k,f), whose summand is P[b,y,x,k] + w[0,0,0,k,f]: the weight is read through a reshape to [288,64] and
  back, which at flat position k*64+f is entry (k,f) again. The patch array itself (nine shifted windows joined along
  the channel axis) is not opened: it stays the stage's own term.
-/
import proofs.«121963_j8091718386441_1_alg».proof.Proof.Gen.ReferenceIdeal.Read
import proofs.«121963_j8091718386441_1_alg».proof.Proof.Spread
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

/-- Axis 3 of [8,30,30,288,64] dropped leaves [8,30,30,64]. -/
theorem reduces3 : S8x30x30x288x64.Reduces [3] S8x30x30x64 := by decide

/-- The sum array at (b,y,x,k,f) is patch entry k of (b,y,x) plus the weight of (k,f). -/
theorem summand (x0 : (⟨S8x32x32x32, .f32⟩ : BufTy).Contents (Elt Ideal)) (x1 : (⟨S1x1x1x288x64, .f32⟩ : BufTy).Contents (Elt Ideal))
    (i : S8x30x30x64.Idx) (k : Fin 288) :
    val_main_v15 (F := Ideal) x0 x1 (reduces3.lift i k) = Cert.Spread.shifted (val_main_v9 (F := Ideal) x0) x1 i k := by
  have e1 : idx_main_v10 (idx_main_v13 (reduces3.lift i k)) = ix4 (i 0) (i 1) (i 2) k :=
    funext fun a => Fin.ext (by match a with | ⟨0, _⟩ => rfl | ⟨1, _⟩ => rfl | ⟨2, _⟩ => rfl | ⟨3, _⟩ => rfl)
  have e2 : idx_main_v11 (idx_main_v12 (idx_main_v14 (reduces3.lift i k))) = ix5 0 0 0 k (i 3) :=
    funext fun a => Fin.ext (by
      have hk : k.val < 288 := k.isLt
      have hf : (i 3).val < 64 := (i 3).isLt
      match a with
      | ⟨0, _⟩ => rfl
      | ⟨1, _⟩ => rfl
      | ⟨2, _⟩ => rfl
      | ⟨3, _⟩ => show (k.val * 64 + (i 3).val) / 64 % 288 = k.val; omega
      | ⟨4, _⟩ => show (k.val * 64 + (i 3).val) % 64 = (i 3).val; omega)
  rw [val_main_v15_apply, val_main_v13_apply, val_main_v10_apply, val_main_v14_apply, val_main_v12_apply, val_main_v11_apply, e1, e2]
  rfl

/-- The max-reduction at (b,y,x,f): the largest of the 288 numbers and -inf. -/
theorem ref_max (x0 : (⟨S8x32x32x32, .f32⟩ : BufTy).Contents (Elt Ideal)) (x1 : (⟨S1x1x1x288x64, .f32⟩ : BufTy).Contents (Elt Ideal))
    (i : S8x30x30x64.Idx) :
    val_main_v16 (F := Ideal) x0 x1 i
      = (Finset.univ : Finset (Fin 288)).fold max (Ideal.ofBits .f32 0xFF800000#32) (Cert.Spread.shifted (val_main_v9 (F := Ideal) x0) x1 i) := by
  unfold val_main_v16
  rw [Host.reduce_eq_fold_single FloatOps.maximumf _ _ reducesTo_S8x30x30x288x64_S8x30x30x64_d3 reduces3 h_S_ i]
  exact Finset.fold_congr (fun k _ => summand x0 x1 i k)

/-- The min-reduction at (b,y,x,f): the smallest of the 288 numbers and +inf. -/
theorem ref_min (x0 : (⟨S8x32x32x32, .f32⟩ : BufTy).Contents (Elt Ideal)) (x1 : (⟨S1x1x1x288x64, .f32⟩ : BufTy).Contents (Elt Ideal))
    (i : S8x30x30x64.Idx) :
    val_main_v17 (F := Ideal) x0 x1 i
      = (Finset.univ : Finset (Fin 288)).fold min (Ideal.ofBits .f32 0x7F800000#32) (Cert.Spread.shifted (val_main_v9 (F := Ideal) x0) x1 i) := by
  unfold val_main_v17
  rw [Host.reduce_eq_fold_single FloatOps.minimumf _ _ reducesTo_S8x30x30x288x64_S8x30x30x64_d3 reduces3 h_S_ i]
  exact Finset.fold_congr (fun k _ => summand x0 x1 i k)

/-- The reference's result is 'spread' of its patch array, the weight and the bias. -/
theorem ref_eq (x0 : (⟨S8x32x32x32, .f32⟩ : BufTy).Contents (Elt Ideal)) (x1 : (⟨S1x1x1x288x64, .f32⟩ : BufTy).Contents (Elt Ideal))
    (x2 : (⟨S64, .f32⟩ : BufTy).Contents (Elt Ideal)) :
    val_main_v21 (F := Ideal) x0 x1 x2 = Cert.Spread.spread (val_main_v9 (F := Ideal) x0) x1 x2 := by
  funext i
  have e : idx_main_v19 (idx_main_v20 i) = ix1 (i 3) := funext fun a => Fin.ext (by match a with | ⟨0, _⟩ => rfl)
  rw [val_main_v21_apply, val_main_v18_apply, val_main_v20_apply, val_main_v19_apply, ref_max, ref_min, e]
  rfl

end Cert.ReferenceIdeal.RefValue

end
-- ==== Proof.lean ====
/-
  The kernel computes a max-plus minus min-plus ("tropical") 3x3 convolution: for every output position (b,y,x) of
  an [8,32,32,32] image and every filter f of 64, over the 288 entries k of the 3x3x32 window at that position,

      out[b,y,x,f] = max_k (patch[b,y,x,k] + w[k,f]) - min_k (patch[b,y,x,k] + w[k,f]) + bias[f].

  The kernel program flattens the 7200 positions into rows, hands 120 rows at a time to a body that forms the
  [120,64,288] array of sums against the filter-major weight and reduces its last axis; the reference forms the
  [8,30,30,288,64] array of sums and reduces axis 3. Over the extended reals both are the function 'spread' of the
  patch array, the weight and the bias (Proof/Spread.lean): the two sides differ only in how the 288 numbers of one
  output entry are laid out, never in the numbers, the values the reductions start from (-inf and +inf), or the
  grouping (max - min) + bias. No law of arithmetic beyond reading each array at an index is used, so the
  precondition (finite inputs) is not opened.

  The three frames: each program runs to the end without a fault and leaves its three arguments as they were. For the
  two kernel programs this is the region's run between the host lines (Proof/KernelRegion.lean, KernelIdealRegion.lean:
  the same text at the word-level and at the ideal instance); for the reference its run, with the result dropped.
  The idealization rewrote nothing, so what it preserves is the trivial proposition.
-/
import proofs.«121963_j8091718386441_1_alg».proof.Defs
import proofs.«121963_j8091718386441_1_alg».proof.Proof.Gen.Kernel
import proofs.«121963_j8091718386441_1_alg».proof.Proof.Gen.Kernel.Skeleton
import proofs.«121963_j8091718386441_1_alg».proof.Proof.Gen.Kernel.Launch
import proofs.«121963_j8091718386441_1_alg».proof.Proof.Gen.Kernel.Points
import proofs.«121963_j8091718386441_1_alg».proof.Proof.Gen.KernelIdeal
import proofs.«121963_j8091718386441_1_alg».proof.Proof.Gen.KernelIdeal.Skeleton
import proofs.«121963_j8091718386441_1_alg».proof.Proof.Gen.KernelIdeal.Launch
import proofs.«121963_j8091718386441_1_alg».proof.Proof.Gen.KernelIdeal.Points
import proofs.«121963_j8091718386441_1_alg».proof.Proof.Gen.ReferenceIdeal
import proofs.«121963_j8091718386441_1_alg».proof.Proof.Gen.Pre_finite_inputs
import proofs.«121963_j8091718386441_1_alg».proof.Proof.Gen.ReferenceIdeal.Run
import proofs.«121963_j8091718386441_1_alg».proof.Proof.Gen.ReferenceIdeal.Read
import proofs.«121963_j8091718386441_1_alg».proof.Proof.KernelRegion
import proofs.«121963_j8091718386441_1_alg».proof.Proof.KernelIdealRegion
import proofs.«121963_j8091718386441_1_alg».proof.Proof.KernelResult
import proofs.«121963_j8091718386441_1_alg».proof.Proof.RefSpread
import Idealize.ShloMosaic.Adequacy
import Idealize.ShloMosaic.Init

noncomputable section

namespace Cert.Proof

open Idealize.ShloMosaic Idealize.ShloMosaic.TcCoe Idealize.SL.Sem

/-- Both programs build the patch array by the same nine slices and the same join: one term. -/
theorem patches_agree (x : Vec Ideal Cert.KernelIdeal.S8x32x32x32 .f32) :
    Cert.KernelIdeal.KValue.patchesOf x = Cert.ReferenceIdeal.Read.val_main_v9 (F := Ideal) x := rfl

/-- The idealized kernel program's run with its result named: 'spread' of the patch array, the weight and the bias;
    the three arguments as launched. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v15)
          = Cert.Spread.spread (Cert.KernelIdeal.KValue.patchesOf (m ((c.tc : Thread Cert.KernelIdeal.nD Cert.KernelIdeal.τ).loc Cert.KernelIdeal.main_arg0)))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run (Cert.KernelIdeal.defs (F := Ideal)) _ _).mono (fun _ h c =>
    ⟨((h c).2 Cert.KernelIdeal.main_v15 (Pipeline.mem_restRefs_of Cert.KernelIdeal.main_v15 (by decide) (by decide))).trans (Cert.KernelIdeal.KValue.result_eq m c),
     ((h c).2 Cert.KernelIdeal.main_arg0 (Pipeline.mem_restRefs_of Cert.KernelIdeal.main_arg0 (by decide) (by decide))).trans (Cert.KernelIdeal.Region.exit_arg0 m (Cert.KernelIdeal.Region.dats m) c),
     ((h c).2 Cert.KernelIdeal.main_arg1 (Pipeline.mem_restRefs_of Cert.KernelIdeal.main_arg1 (by decide) (by decide))).trans (Cert.KernelIdeal.Region.exit_arg1 m (Cert.KernelIdeal.Region.dats m) c),
     ((h c).2 Cert.KernelIdeal.main_arg2 (Pipeline.mem_restRefs_of Cert.KernelIdeal.main_arg2 (by decide) (by decide))).trans (Cert.KernelIdeal.Region.exit_arg2 m (Cert.KernelIdeal.Region.dats m) c)⟩)
    (Cert.KernelIdeal.Region.run_main (F := Ideal) m ρ)

theorem frame_k : Cert.frame_Kernel (hKernel := Cert.Kernel.Gen.facts) (hPre_finite_inputs := Cert.Pre_finite_inputs.Gen.facts) :=
  fun m ρ _ => Cert.Kernel.Region.frame m ρ

theorem frame_ki : Cert.frame_KernelIdeal (hKernelIdeal := Cert.KernelIdeal.Gen.facts) (hPre_finite_inputs := Cert.Pre_finite_inputs.Gen.facts) :=
  fun m ρ _ => Cert.KernelIdeal.Region.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both idealized programs end with result 'spread' of the (common) patch
    array, weight and bias. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.ref_eq, (hagree c).1, (hagree c).2.1, (hagree c).2.2]
  exact congrArg (fun P => Cert.Spread.spread P _ _) (patches_agree _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
